-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x10000x128 : Shape := ⟨3, ![2, 10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S2x10000x128 : S_.BroadcastsInDim S2x10000x128 (![] : Fin 0 → Fin S2x10000x128.rank)
  reducesTo_S2x10000x128_S_d0_1_2 : S2x10000x128.ReducesTo [0, 1, 2] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S2x10000x128 .f32) (main_arg1 : FVec F S10000x10000 .f32) (main_arg2 : FVec F S128x128 .f32) (main_arg3 : FVec F S128 .f32) : IVec S_ 1 :=
  let main_v0 : FVec F S2x10000x128 .f32 := Host.absf main_arg0
  let main_cst : FVec F S_ .f32 := constant S_ .f32 0x7F800000#32
  let main_v1 : FVec F S2x10000x128 .f32 := broadcastInDim S2x10000x128 ![] bcast_S_S2x10000x128 main_cst
  let main_v2 : IVec S2x10000x128 1 := cmpf .olt main_v0 main_v1
  let main_c : IVec S_ 1 := constantI S_ 1 1#1
  let main_v3 : IVec S_ 1 := (fun x v => Host.reduce IntOp.andi x v reducesTo_S2x10000x128_S_d0_1_2 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S2x10000x128 : Shape := ⟨3, ![2, 10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S2x400x128 : Shape := ⟨3, ![2, 400, 128]⟩
abbrev S1x10000x128 : Shape := ⟨3, ![1, 10000, 128]⟩
abbrev S10000x128 : Shape := ⟨2, ![10000, 128]⟩
abbrev S400x128 : Shape := ⟨2, ![400, 128]⟩
abbrev S1x400x128 : Shape := ⟨3, ![1, 400, 128]⟩

abbrev nBuf : Space → Nat
  | .hbm => 6
  | .vmem => 8
  | .smem => 0
  | _ => 0

abbrev bufTy : (tb : Table) → Fin (tcTables nBuf tb) → BufTy
  | .hbm, ⟨0, _⟩ => ⟨S2x10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S2x10000x128, .f32⟩
  | .local _ .vmem, ⟨0, _⟩ => ⟨S2x10000x128, .f32⟩
  | .local _ .vmem, ⟨1, _⟩ => ⟨S128x128, .f32⟩
  | .local _ .vmem, ⟨2, _⟩ => ⟨S400x10000, .f32⟩
  | .local _ .vmem, ⟨3, _⟩ => ⟨S400x10000, .f32⟩
  | .local _ .vmem, ⟨4, _⟩ => ⟨S1x128, .f32⟩
  | .local _ .vmem, ⟨5, _⟩ => ⟨S2x400x128, .f32⟩
  | .local _ .vmem, ⟨6, _⟩ => ⟨S2x400x128, .f32⟩
  | .local _ .vmem, ⟨7, _⟩ => ⟨S2x10000x128, .f32⟩
  | _, _ => ⟨S2x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S2x10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128_S1x128 : S128.ShapeCasts S1x128
  inb_S128x128_S128x128_0_0 : ∀ a, (![0, 0] : Fin 2 → Nat) a + S128x128.size a ≤ S128x128.size a
  h_S128x128 : 0 < S128x128.numel
  inb_S2x10000x128_S1x10000x128_0_0_0 : ∀ a, (![0, 0, 0] : Fin 3 → Nat) a + S1x10000x128.size a ≤ S2x10000x128.size a
  h_S1x10000x128 : 0 < S1x10000x128.numel
  shapeCasts_S1x10000x128_S10000x128 : S1x10000x128.ShapeCasts S10000x128
  shapeCasts_S10000x128_S1x10000x128 : S10000x128.ShapeCasts S1x10000x128
  inb_S2x10000x128_S1x10000x128_1_0_0 : ∀ a, (![1, 0, 0] : Fin 3 → Nat) a + S1x10000x128.size a ≤ S2x10000x128.size a
  inb_S400x10000_S400x10000_0_0 : ∀ a, (![0, 0] : Fin 2 → Nat) a + S400x10000.size a ≤ S400x10000.size a
  h_S400x10000 : 0 < S400x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S2x400x128_S1x400x128_0_0_0 : ∀ a, (![0, 0, 0] : Fin 3 → Nat) a + S1x400x128.size a ≤ S2x400x128.size a
  h_S1x400x128 : 0 < S1x400x128.numel
  shapeCasts_S1x400x128_S400x128 : S1x400x128.ShapeCasts S400x128
  shapeCasts_S400x128_S1x400x128 : S400x128.ShapeCasts S1x400x128
  inb_S2x400x128_S1x400x128_1_0_0 : ∀ a, (![1, 0, 0] : Fin 3 → Nat) a + S1x400x128.size a ≤ S2x400x128.size a
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2x10000x128.size a ≤ S2x10000x128.size a
  hwx0_0 : ∀ i : grid0.Coords, EltTy.bits .f32 = 32 ∨ (Rect.block (s := S2x10000x128) S2x10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x10000.size a ≤ S10000x10000.size a
  hwx0_2 : ∀ i : grid0.Coords, EltTy.bits .f32 = 32 ∨ (Rect.block (s := S10000x10000) S400x10000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x400x128.size a ≤ S2x10000x128.size a
  hwx0_4 : ∀ i : grid0.Coords, EltTy.bits .f32 = 32 ∨ (Rect.block (s := S2x10000x128) S2x400x128.size (cc0_transform_4 i) (hinb0_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg0) S2x10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S400x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S2x400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x10000x128 : Shape := ⟨3, ![2, 10000, 128]⟩
abbrev S10000x10000 : Shape := ⟨2, ![10000, 10000]⟩
abbrev S128x128 : Shape := ⟨2, ![128, 128]⟩
abbrev S128 : Shape := ⟨1, ![128]⟩
abbrev S1x10000x128 : Shape := ⟨3, ![1, 10000, 128]⟩
abbrev S10000x128 : Shape := ⟨2, ![10000, 128]⟩
abbrev S1x128 : Shape := ⟨2, ![1, 128]⟩

abbrev nBuf : Space → Nat
  | .hbm => 21
  | .vmem => 0
  | .smem => 0
  | _ => 0

abbrev bufTy : (tb : Table) → Fin (tcTables nBuf tb) → BufTy
  | .hbm, ⟨0, _⟩ => ⟨S2x10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1x10000x128, .f32⟩
  | .hbm, ⟨5, _⟩ => ⟨S10000x128, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S1x10000x128, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S1x128, .f32⟩
  | .hbm, ⟨16, _⟩ => ⟨S10000x128, .f32⟩
  | .hbm, ⟨17, _⟩ => ⟨S10000x128, .f32⟩
  | .hbm, ⟨18, _⟩ => ⟨S1x10000x128, .f32⟩
  | .hbm, ⟨19, _⟩ => ⟨S1x10000x128, .f32⟩
  | .hbm, ⟨20, _⟩ => ⟨S2x10000x128, .f32⟩
  | _, _ => ⟨S2x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]

class Facts₀ : Prop where
  slices_S2x10000x128_S1x10000x128_0_0_0 : S2x10000x128.Slices ![0, 0, 0] S1x10000x128
  shapeCasts_S1x10000x128_S10000x128 : S1x10000x128.ShapeCasts S10000x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  slices_S2x10000x128_S1x10000x128_1_0_0 : S2x10000x128.Slices ![1, 0, 0] S1x10000x128
  bcast_S10000x128_S1x10000x128_1_2 : S10000x128.BroadcastsInDim S1x10000x128 (![1, 2] : Fin 2 → Fin S1x10000x128.rank)
  concatenates_S1x10000x128_S1x10000x128_S2x10000x128_d0 : Shape.Concatenates [S1x10000x128, S1x10000x128] S2x10000x128 0
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Products.lean ====
/-
  The kernel's two matrix products, read at an output entry, over the extended reals.

  Both are products into a zero accumulator with one contracted axis, so each entry is a plain sum:
    the feature product  (v · w) (k, j) = ∑ l, v (k, l) * w (l, j)       over the 128 input features,
    the node product     (a · s) (p, j) = ∑ k, a (p, k) * s (k, j)       over the 10000 nodes.
  The contraction index of a product is a one-axis multi-index; the sums are re-indexed by its one coordinate.
-/
import proofs.«179109_g91036126806428_cont_sun_m_1138_8_alg».proof.Proof.Gen.KernelIdeal.Skeleton
import Idealize.ShloMosaic.Lib.ValueIdx
import Idealize.ShloMosaic.PureOps.Ideal.Laws

noncomputable section

open scoped BigOperators

namespace Cert.KernelIdeal.Products

open Cert.KernelIdeal Cert.KernelIdeal.Gen Idealize.ShloMosaic Idealize.ShloMosaic.ValueIdx

/-! ## The operands' indices, axis by axis -/

theorem lhs_feat_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_feat_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_feat_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_feat_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

theorem lhs_node_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhs_node_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem rhs_node_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem rhs_node_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-! ## The two products at an entry -/

/-- The feature product at `(p, j)`: the sum over the input features `k` of `l (p, k) * r (k, j)`. -/
theorem feat_product_apply (l : FVec Ideal S10000x128 .f32) (r : FVec Ideal S128x128 .f32) (p : Fin 10000) (j : Fin 128) :
    matmul dot_S10000x128_S128x128_S10000x128_1_0_0_1_n_n none l r (constant (F := Ideal) S10000x128 .f32 0x00000000#32) (ix2 p j)
      = ∑ k : Fin 128, l (ix2 p k) * r (ix2 k j) := by
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p j) ((ValueIdx.contrEquiv1 dot_S10000x128_S128x128_S10000x128_1_0_0_1_n_n 128 rfl rfl).symm k) = ix2 p k := funext fun a => Fin.ext (by
    match a with
    | ⟨0, _⟩ => exact lhs_feat_0 _ _
    | ⟨1, _⟩ => exact (lhs_feat_1 _ _).trans hk)
  have er : dot_S10000x128_S128x128_S10000x128_1_0_0_1_n_n.rhsIdx (ix2 p j) ((ValueIdx.contrEquiv1 dot_S10000x128_S128x128_S10000x128_1_0_0_1_n_n 128 rfl rfl).symm k) = ix2 k j := funext fun a => Fin.ext (by
    match a with
    | ⟨0, _⟩ => exact (rhs_feat_0 _ _).trans hk
    | ⟨1, _⟩ => exact rhs_feat_1 _ _)
  rw [el, er]

/-- The node product at `(p, j)`: the sum over the nodes `k` of `l (p, k) * r (k, j)`. -/
theorem node_product_apply (l : FVec Ideal S400x10000 .f32) (r : FVec Ideal S10000x128 .f32) (p : Fin 400) (j : Fin 128) :
    matmul dot_S400x10000_S10000x128_S400x128_1_0_0_1_n_n none l r (constant (F := Ideal) S400x128 .f32 0x00000000#32) (ix2 p j)
      = ∑ k : Fin 10000, l (ix2 p k) * r (ix2 k j) := by
  simp only [matmul]
  rw [Ideal.matmul_constant_zero_apply, ← Equiv.sum_comp (ValueIdx.contrEquiv1 dot_S400x10000_S10000x128_S400x128_1_0_0_1_n_n 10000 rfl rfl).symm]
  refine Finset.sum_congr rfl fun k _ => ?_
  have hk := ValueIdx.contrEquiv1_symm_val dot_S400x10000_S10000x128_S400x128_1_0_0_1_n_n 10000 rfl rfl k
  have el : dot_S400x10000_S10000x128_S400x128_1_0_0_1_n_n.lhsIdx (ix2 p j) ((ValueIdx.contrEquiv1 dot_S400x10000_S10000x128_S400x128_1_0_0_1_n_n 10000 rfl rfl).symm k) = ix2 p k := funext fun a => Fin.ext (by
    match a with
    | ⟨0, _⟩ => exact lhs_node_0 _ _
    | ⟨1, _⟩ => exact (lhs_node_1 _ _).trans hk)
  have er : dot_S400x10000_S10000x128_S400x128_1_0_0_1_n_n.rhsIdx (ix2 p j) ((ValueIdx.contrEquiv1 dot_S400x10000_S10000x128_S400x128_1_0_0_1_n_n 10000 rfl rfl).symm k) = ix2 k j := funext fun a => Fin.ext (by
    match a with
    | ⟨0, _⟩ => exact (rhs_node_0 _ _).trans hk
    | ⟨1, _⟩ => exact rhs_node_1 _ _)
  rw [el, er]

end Cert.KernelIdeal.Products

end
-- ==== Proof.Payloads.lean ====
/-
  The kernel body's four stored values, read at an entry, over the extended reals.

  At the grid's first point the body fills the support scratch, one batch entry per store: the stored slab is the
  feature product of that batch entry's node features with the weight,
      slab (u, k, j) = ∑ l, v (0, k, l) * w (l, j).
  At every point it fills the output block, one batch entry per store: the stored slab is the node product of the
  adjacency stripe with that batch entry's support slab, plus the bias row,
      slab (u, p, j) = (∑ k, a (p, k) * s (0, k, j)) + bias (0, j).
  The shape casts around the products only add or drop the leading unit axis.
-/
import proofs.«179109_g91036126806428_cont_sun_m_1138_8_alg».proof.Proof.Products
import Idealize.ShloMosaic.Lib.ValueLayout
import Idealize.ShloMosaic.Lib.Pipeline.Value

noncomputable section

open scoped BigOperators

namespace Cert.KernelIdeal.Payloads

open Cert.KernelIdeal Cert.KernelIdeal.Gen Cert.KernelIdeal.Products Idealize.ShloMosaic Idealize.ShloMosaic.ValueIdx

/-- The support slab stored for batch entry 0: the feature product of the loaded node features with the weight. -/
theorem support_slab0_apply (w : Vec Ideal S128x128 .f32) (v : Vec Ideal S1x10000x128 .f32) (u : Fin 1) (k : Fin 10000) (j : Fin 128) :
    k0_pay1 (F := Ideal) w v (ix3 u k j) = ∑ l : Fin 128, v (ix3 (0 : Fin 1) k l) * w (ix2 l j) := by
  unfold k0_pay1
  refine (shapeCast_ab_1ab_apply _ _ u k j).trans ?_
  refine (feat_product_apply _ w k j).trans ?_
  refine Finset.sum_congr rfl fun l _ => ?_
  rw [shapeCast_1ab_ab_apply]

/-- The support slab stored for batch entry 1: the same product. -/
theorem support_slab1_apply (w : Vec Ideal S128x128 .f32) (v : Vec Ideal S1x10000x128 .f32) (u : Fin 1) (k : Fin 10000) (j : Fin 128) :
    k0_pay2 (F := Ideal) w v (ix3 u k j) = ∑ l : Fin 128, v (ix3 (0 : Fin 1) k l) * w (ix2 l j) := by
  unfold k0_pay2
  refine (shapeCast_ab_1ab_apply _ _ u k j).trans ?_
  refine (feat_product_apply _ w k j).trans ?_
  refine Finset.sum_congr rfl fun l _ => ?_
  rw [shapeCast_1ab_ab_apply]

/-- The bias row as the body uses it: its cast to its own shape is the identity. -/
theorem bias_row_eq (bias : Vec Ideal S1x128 .f32) : k0_pay3 (F := Ideal) bias = bias := by
  unfold k0_pay3
  exact shapeCast_self _ _

/-- The output slab stored for batch entry 0: the node product of the adjacency stripe with the support slab, plus the bias. -/
theorem out_slab0_apply (a : Vec Ideal S400x10000 .f32) (bias : Vec Ideal S1x128 .f32) (s : Vec Ideal S1x10000x128 .f32)
    (u : Fin 1) (p : Fin 400) (j : Fin 128) :
    k0_pay4 (F := Ideal) a bias s (ix3 u p j) = (∑ k : Fin 10000, a (ix2 p k) * s (ix3 (0 : Fin 1) k j)) + bias (ix2 (0 : Fin 1) j) := by
  unfold k0_pay4
  refine (shapeCast_ab_1ab_apply _ _ u p j).trans ?_
  rw [addf_apply, node_product_apply, broadcastTo_1b_ab_apply, bias_row_eq]
  congr 1
  refine Finset.sum_congr rfl fun k _ => ?_
  rw [shapeCast_1ab_ab_apply]

/-- The output slab stored for batch entry 1: the same expression. -/
theorem out_slab1_apply (a : Vec Ideal S400x10000 .f32) (bias : Vec Ideal S1x128 .f32) (s : Vec Ideal S1x10000x128 .f32)
    (u : Fin 1) (p : Fin 400) (j : Fin 128) :
    k0_pay5 (F := Ideal) a bias s (ix3 u p j) = (∑ k : Fin 10000, a (ix2 p k) * s (ix3 (0 : Fin 1) k j)) + bias (ix2 (0 : Fin 1) j) := by
  unfold k0_pay5
  refine (shapeCast_ab_1ab_apply _ _ u p j).trans ?_
  rw [addf_apply, node_product_apply, broadcastTo_1b_ab_apply, bias_row_eq]
  congr 1
  refine Finset.sum_congr rfl fun k _ => ?_
  rw [shapeCast_1ab_ab_apply]

end Cert.KernelIdeal.Payloads

end
-- ==== Proof.LibSlabs.lean ====
/-
  Unit slabs along the leading axis of a rank-3 array.

  A `[n, a, b]` array is the stack of its `n` slabs `[1, a, b]`. The slab at height `c` is the unit-stride rectangle
  with offsets `(c, 0, 0)` and sizes `(1, a, b)`: its index `(u, i, j)` sits at `(c, i, j)` of the array. So a load
  through the slab reads the array at `(c, i, j)`, and when a `[2, a, b]` buffer is filled by two stores, one per slab,
  every entry `(c, i, j)` holds the payload of the store for slab `c` at `(0, i, j)`, in whichever order the two stores came.
-/
import Idealize.ShloMosaic.Lib.Pipeline.Value
import Idealize.ShloMosaic.Lib.ValueIdx

noncomputable section

namespace Idealize.ShloMosaic.Slabs

open Idealize.ShloMosaic Idealize.ShloMosaic.ValueIdx

variable {Val : EltTy → Type} {e : EltTy} {n a b : Nat}

/-- Index `(u, i, j)` of the slab at height `c` is index `(c, i, j)` of the array. -/
theorem slab_emb (c : Nat) (hc : c < n)
    (inb : ∀ ax, (![c, 0, 0] : Fin 3 → Nat) ax + (![1, a, b] : Fin 3 → Nat) ax ≤ (⟨3, ![n, a, b]⟩ : Shape).size ax)
    (u : Fin 1) (i : Fin a) (j : Fin b) :
    (Rect.unit (s := ⟨3, ![n, a, b]⟩) ![c, 0, 0] ![1, a, b] inb).emb (ix3 u i j) = ix3 (⟨c, hc⟩ : Fin n) i j := by
  funext ax
  apply Fin.ext
  have hu : u.val = 0 := by omega
  match ax with
  | ⟨0, _⟩ => show c + 1 * u.val = c; omega
  | ⟨1, _⟩ => show 0 + 1 * i.val = i.val; omega
  | ⟨2, _⟩ => show 0 + 1 * j.val = j.val; omega

/-- A load through the slab at height `c` reads the array at `(c, i, j)`. -/
theorem ld_slab (X : (⟨3, ![n, a, b]⟩ : Shape).Idx → Val e) (c : Nat) (hc : c < n)
    (inb : ∀ ax, (![c, 0, 0] : Fin 3 → Nat) ax + (![1, a, b] : Fin 3 → Nat) ax ≤ (⟨3, ![n, a, b]⟩ : Shape).size ax)
    (u : Fin 1) (i : Fin a) (j : Fin b) :
    View.ld X (Rect.unit (s := ⟨3, ![n, a, b]⟩) ![c, 0, 0] ![1, a, b] inb) (ix3 u i j) = X (ix3 (⟨c, hc⟩ : Fin n) i j) := by
  show X ((Rect.unit (s := ⟨3, ![n, a, b]⟩) ![c, 0, 0] ![1, a, b] inb).emb (ix3 u i j)) = _
  rw [slab_emb c hc inb u i j]

/-- An entry of the lower slab is not under the upper slab's rectangle. -/
theorem lower_not_mem_upper
    (inb1 : ∀ ax, (![1, 0, 0] : Fin 3 → Nat) ax + (![1, a, b] : Fin 3 → Nat) ax ≤ (⟨3, ![2, a, b]⟩ : Shape).size ax)
    (i : Fin a) (j : Fin b) :
    ix3 (0 : Fin 2) i j ∉ (Rect.unit (s := ⟨3, ![2, a, b]⟩) ![1, 0, 0] ![1, a, b] inb1).set := by
  rw [Rect.mem_set_unit]
  intro h
  have h0 : (1 : Nat) ≤ 0 := (h (0 : Fin 3)).1
  omega

variable [∀ e, Nonempty (Val e)]

/-- Two stores, the upper slab's last: an entry of the upper slab holds the upper store's payload. -/
theorem canon_two_slabs_upper
    (inb1 : ∀ ax, (![1, 0, 0] : Fin 3 → Nat) ax + (![1, a, b] : Fin 3 → Nat) ax ≤ (⟨3, ![2, a, b]⟩ : Shape).size ax)
    (w1 : (⟨3, ![1, a, b]⟩ : Shape).Idx → Val e) (L : List (View.Piece Val (⟨3, ![2, a, b]⟩ : Shape) e)) (i : Fin a) (j : Fin b) :
    View.canon ((⟨Rect.unit (s := ⟨3, ![2, a, b]⟩) ![1, 0, 0] ![1, a, b] inb1, w1⟩ : View.Piece Val (⟨3, ![2, a, b]⟩ : Shape) e) :: L)
      (ix3 (1 : Fin 2) i j) = w1 (ix3 (0 : Fin 1) i j) := by
  have e : (Rect.unit (s := ⟨3, ![2, a, b]⟩) ![1, 0, 0] ![1, a, b] inb1).emb (ix3 (0 : Fin 1) i j) = ix3 (1 : Fin 2) i j :=
    slab_emb (n := 2) 1 (by omega) inb1 (0 : Fin 1) i j
  rw [← e]
  exact View.canon_cons_emb (Rect.unit (s := ⟨3, ![2, a, b]⟩) ![1, 0, 0] ![1, a, b] inb1) w1 L (ix3 (0 : Fin 1) i j)

/-- Two stores, the upper slab's last: an entry of the lower slab holds the lower store's payload. -/
theorem canon_two_slabs_lower
    (inb1 : ∀ ax, (![1, 0, 0] : Fin 3 → Nat) ax + (![1, a, b] : Fin 3 → Nat) ax ≤ (⟨3, ![2, a, b]⟩ : Shape).size ax)
    (inb0 : ∀ ax, (![0, 0, 0] : Fin 3 → Nat) ax + (![1, a, b] : Fin 3 → Nat) ax ≤ (⟨3, ![2, a, b]⟩ : Shape).size ax)
    (w1 w0 : (⟨3, ![1, a, b]⟩ : Shape).Idx → Val e) (L : List (View.Piece Val (⟨3, ![2, a, b]⟩ : Shape) e)) (i : Fin a) (j : Fin b) :
    View.canon ((⟨Rect.unit (s := ⟨3, ![2, a, b]⟩) ![1, 0, 0] ![1, a, b] inb1, w1⟩ : View.Piece Val (⟨3, ![2, a, b]⟩ : Shape) e)
        :: ⟨Rect.unit (s := ⟨3, ![2, a, b]⟩) ![0, 0, 0] ![1, a, b] inb0, w0⟩ :: L)
      (ix3 (0 : Fin 2) i j) = w0 (ix3 (0 : Fin 1) i j) := by
  refine (View.canon_cons_of_not_mem
    (⟨Rect.unit (s := ⟨3, ![2, a, b]⟩) ![1, 0, 0] ![1, a, b] inb1, w1⟩ : View.Piece Val (⟨3, ![2, a, b]⟩ : Shape) e)
    (⟨Rect.unit (s := ⟨3, ![2, a, b]⟩) ![0, 0, 0] ![1, a, b] inb0, w0⟩ :: L) (lower_not_mem_upper inb1 i j)).trans ?_
  have e : (Rect.unit (s := ⟨3, ![2, a, b]⟩) ![0, 0, 0] ![1, a, b] inb0).emb (ix3 (0 : Fin 1) i j) = ix3 (0 : Fin 2) i j :=
    slab_emb (n := 2) 0 (by omega) inb0 (0 : Fin 1) i j
  rw [← e]
  exact View.canon_cons_emb (Rect.unit (s := ⟨3, ![2, a, b]⟩) ![0, 0, 0] ![1, a, b] inb0) w0 L (ix3 (0 : Fin 1) i j)

/-- Every entry of a `[2, a, b]` buffer is under one of the two slabs. -/
theorem two_slabs_cover
    (inb1 : ∀ ax, (![1, 0, 0] : Fin 3 → Nat) ax + (![1, a, b] : Fin 3 → Nat) ax ≤ (⟨3, ![2, a, b]⟩ : Shape).size ax)
    (inb0 : ∀ ax, (![0, 0, 0] : Fin 3 → Nat) ax + (![1, a, b] : Fin 3 → Nat) ax ≤ (⟨3, ![2, a, b]⟩ : Shape).size ax)
    (w1 w0 : (⟨3, ![1, a, b]⟩ : Shape).Idx → Val e) (y : (⟨3, ![2, a, b]⟩ : Shape).Idx) :
    ∃ p ∈ [(⟨Rect.unit (s := ⟨3, ![2, a, b]⟩) ![1, 0, 0] ![1, a, b] inb1, w1⟩ : View.Piece Val (⟨3, ![2, a, b]⟩ : Shape) e),
        ⟨Rect.unit (s := ⟨3, ![2, a, b]⟩) ![0, 0, 0] ![1, a, b] inb0, w0⟩], y ∈ p.1.set := by
  have hy0 : (y 0).val < 2 := (y 0).isLt
  have hy1 : (y 1).val < a := (y 1).isLt
  have hy2 : (y 2).val < b := (y 2).isLt
  by_cases h : (y 0).val = 1
  · refine ⟨_, List.mem_cons_self, ?_⟩
    rw [Rect.mem_set_unit]
    intro ax
    match ax with
    | ⟨0, _⟩ => show 1 ≤ (y 0).val ∧ (y 0).val < 1 + 1; omega
    | ⟨1, _⟩ => show 0 ≤ (y 1).val ∧ (y 1).val < 0 + a; omega
    | ⟨2, _⟩ => show 0 ≤ (y 2).val ∧ (y 2).val < 0 + b; omega
  · refine ⟨_, List.mem_cons_of_mem _ List.mem_cons_self, ?_⟩
    rw [Rect.mem_set_unit]
    intro ax
    match ax with
    | ⟨0, _⟩ => show 0 ≤ (y 0).val ∧ (y 0).val < 0 + 1; omega
    | ⟨1, _⟩ => show 0 ≤ (y 1).val ∧ (y 1).val < 0 + a; omega
    | ⟨2, _⟩ => show 0 ≤ (y 2).val ∧ (y 2).val < 0 + b; omega

end Idealize.ShloMosaic.Slabs

end
-- ==== Proof.Spec.lean ====
/-
  The graph-convolution layer as ONE function of its four argument arrays, over the extended reals.

  For a batch entry `b`, a node `r` and an output feature `j`

      support x w (b, k, j) = ∑ l, x (b, k, l) * w (l, j)            (the node features times the weight)
      layer x adj w bias (b, r, j) = (∑ k, adj (r, k) * support x w (b, k, j)) + bias j

  Both programs of this certificate compute exactly this nesting: the inner sum over the 128 input features first,
  the outer sum over the 10000 nodes second, the bias added last. No term is moved across a sum, so no law of the
  extended reals beyond reading each operation at an index is needed, and the inputs' finiteness is never used.
-/
import Idealize.ShloMosaic.PureOps.Ideal
import Idealize.ShloMosaic.Lib.ValueIdx

noncomputable section

open scoped BigOperators

namespace Cert.GraphConv

open Idealize.ShloMosaic Idealize.ShloMosaic.ValueIdx

/-- The node features, the result and the support matrix: batch × nodes × features. -/
abbrev Sbnf : Shape := ⟨3, ![2, 10000, 128]⟩
/-- The adjacency matrix: nodes × nodes. -/
abbrev Snn : Shape := ⟨2, ![10000, 10000]⟩
/-- The weight: input features × output features. -/
abbrev Sff : Shape := ⟨2, ![128, 128]⟩
/-- The bias: one entry per output feature. -/
abbrev Sf : Shape := ⟨1, ![128]⟩

/-- The support matrix: entry `(b, k, j)` is the sum over the input features `l` of `x (b, k, l) * w (l, j)`. -/
def support (x : FVec Ideal Sbnf .f32) (w : FVec Ideal Sff .f32) : FVec Ideal Sbnf .f32 :=
  fun i => ∑ l : Fin 128, x (ix3 (i 0) (i 1) l) * w (ix2 l (i 2))

/-- The layer: entry `(b, r, j)` is the sum over the nodes `k` of `adj (r, k) * support (b, k, j)`, plus `bias j`. -/
def layer (x : FVec Ideal Sbnf .f32) (adj : FVec Ideal Snn .f32) (w : FVec Ideal Sff .f32) (bias : FVec Ideal Sf .f32) :
    FVec Ideal Sbnf .f32 :=
  fun i => (∑ k : Fin 10000, adj (ix2 (i 1) k) * support x w (ix3 (i 0) k (i 2))) + bias (ix1 (i 2))

theorem support_apply (x : FVec Ideal Sbnf .f32) (w : FVec Ideal Sff .f32) (b : Fin 2) (k : Fin 10000) (j : Fin 128) :
    support x w (ix3 b k j) = ∑ l : Fin 128, x (ix3 b k l) * w (ix2 l j) := rfl

theorem layer_apply (x : FVec Ideal Sbnf .f32) (adj : FVec Ideal Snn .f32) (w : FVec Ideal Sff .f32) (bias : FVec Ideal Sf .f32)
    (b : Fin 2) (r : Fin 10000) (j : Fin 128) :
    layer x adj w bias (ix3 b r j) = (∑ k : Fin 10000, adj (ix2 r k) * support x w (ix3 b k j)) + bias (ix1 j) := rfl

end Cert.GraphConv

end
-- ==== Proof.Pieces.lean ====
/-
  What each case of the kernel body leaves in its buffers, over the extended reals.

  The body has two cases. At the grid's first point it first stores the support matrix into the scratch, one slab per
  batch entry: slab `b` is the feature product of batch entry `b`'s node features with the weight, so the scratch ends
  holding `support x w`. At every point it then stores the output block, one slab per batch entry: slab `b` is the
  adjacency stripe times slab `b` of the scratch, plus the bias row. At the first point the scratch it reads is the one it
  has just stored; at a later point it is what the point before left, which the body does not touch.

  So with `outBlock a bias s (b, p, j) = (∑ k, a (p, k) * s (b, k, j)) + bias (0, j)`:
    first point:  scratch = support x w,      output block = outBlock a bias (support x w);
    later point:  scratch unchanged (= s),    output block = outBlock a bias s.
-/
import proofs.«179109_g91036126806428_cont_sun_m_1138_8_alg».proof.Proof.Gen.KernelIdeal.Frame
import proofs.«179109_g91036126806428_cont_sun_m_1138_8_alg».proof.Proof.Payloads
import proofs.«179109_g91036126806428_cont_sun_m_1138_8_alg».proof.Proof.LibSlabs
import proofs.«179109_g91036126806428_cont_sun_m_1138_8_alg».proof.Proof.Spec
import Idealize.ShloMosaic.Lib.Tactic

set_option maxRecDepth 16384

noncomputable section

open scoped BigOperators

namespace Cert.KernelIdeal.Pieces

open Cert.KernelIdeal Cert.KernelIdeal.Gen Cert.KernelIdeal.Payloads Cert.GraphConv
open Idealize.ShloMosaic Idealize.ShloMosaic.TcCoe Idealize.ShloMosaic.Tactic Idealize.ShloMosaic.ValueIdx Idealize.ShloMosaic.Slabs
open Idealize.SL.Sem

theorem hz2 : (![0, 0] : Fin 2 → Nat) = fun _ => 0 := funext fun a => by fin_cases a <;> rfl

/-- The output block the body leaves when the scratch holds `s`: entry `(b, p, j)` is the sum over the nodes `k` of
    `a (p, k) * s (b, k, j)`, plus the bias row's entry `j`. -/
def outBlock (a : Vec Ideal S400x10000 .f32) (bias : Vec Ideal S1x128 .f32) (s : Vec Ideal S2x10000x128 .f32) : Vec Ideal S2x400x128 .f32 :=
  fun y => (∑ k : Fin 10000, a (ix2 (y 1) k) * s (ix3 (y 0) k (y 2))) + bias (ix2 (0 : Fin 1) (y 2))

/-- Two support slabs, one per batch entry, fill the scratch with the support matrix. -/
theorem support_canon (x : Vec Ideal S2x10000x128 .f32) (w : Vec Ideal S128x128 .f32) :
    View.canon [(⟨Rect.unit (s := S2x10000x128) ![1, 0, 0] ![1, 10000, 128] Facts₀.inb_S2x10000x128_S1x10000x128_1_0_0,
          k0_pay2 (F := Ideal) w (View.ld x (Rect.unit (s := S2x10000x128) ![1, 0, 0] ![1, 10000, 128] Facts₀.inb_S2x10000x128_S1x10000x128_1_0_0))⟩ : View.Piece (Elt Ideal) S2x10000x128 .f32),
        ⟨Rect.unit (s := S2x10000x128) ![0, 0, 0] ![1, 10000, 128] Facts₀.inb_S2x10000x128_S1x10000x128_0_0_0,
          k0_pay1 (F := Ideal) w (View.ld x (Rect.unit (s := S2x10000x128) ![0, 0, 0] ![1, 10000, 128] Facts₀.inb_S2x10000x128_S1x10000x128_0_0_0))⟩]
      = support x w := by
  funext y
  obtain ⟨b, k, j, rfl⟩ : ∃ (b : Fin 2) (k : Fin 10000) (j : Fin 128), y = ix3 b k j := ⟨y 0, y 1, y 2, eq_ix3 y⟩
  by_cases hb : b.val = 0
  · obtain rfl : b = 0 := Fin.ext hb
    refine (canon_two_slabs_lower Facts₀.inb_S2x10000x128_S1x10000x128_1_0_0 Facts₀.inb_S2x10000x128_S1x10000x128_0_0_0 _ _ [] k j).trans ?_
    rw [support_slab0_apply, support_apply]
    refine Finset.sum_congr rfl fun l _ => ?_
    rw [ld_slab x 0 (by omega) Facts₀.inb_S2x10000x128_S1x10000x128_0_0_0 0 k l]
    rfl
  · obtain rfl : b = 1 := Fin.ext (by have := b.isLt; omega)
    refine (canon_two_slabs_upper Facts₀.inb_S2x10000x128_S1x10000x128_1_0_0 _ _ k j).trans ?_
    rw [support_slab1_apply, support_apply]
    refine Finset.sum_congr rfl fun l _ => ?_
    rw [ld_slab x 1 (by omega) Facts₀.inb_S2x10000x128_S1x10000x128_1_0_0 0 k l]
    rfl

/-- Two output slabs, one per batch entry, fill the output block: each is the adjacency stripe times that batch
    entry's slab of the scratch, plus the bias row. -/
theorem out_canon (a : Vec Ideal S400x10000 .f32) (bias : Vec Ideal S1x128 .f32) (s : Vec Ideal S2x10000x128 .f32) :
    View.canon [(⟨Rect.unit (s := S2x400x128) ![1, 0, 0] ![1, 400, 128] Facts₀.inb_S2x400x128_S1x400x128_1_0_0,
          k0_pay5 (F := Ideal) a bias (View.ld s (Rect.unit (s := S2x10000x128) ![1, 0, 0] ![1, 10000, 128] Facts₀.inb_S2x10000x128_S1x10000x128_1_0_0))⟩ : View.Piece (Elt Ideal) S2x400x128 .f32),
        ⟨Rect.unit (s := S2x400x128) ![0, 0, 0] ![1, 400, 128] Facts₀.inb_S2x400x128_S1x400x128_0_0_0,
          k0_pay4 (F := Ideal) a bias (View.ld s (Rect.unit (s := S2x10000x128) ![0, 0, 0] ![1, 10000, 128] Facts₀.inb_S2x10000x128_S1x10000x128_0_0_0))⟩]
      = outBlock a bias s := by
  funext y
  obtain ⟨b, p, j, rfl⟩ : ∃ (b : Fin 2) (p : Fin 400) (j : Fin 128), y = ix3 b p j := ⟨y 0, y 1, y 2, eq_ix3 y⟩
  by_cases hb : b.val = 0
  · obtain rfl : b = 0 := Fin.ext hb
    refine (canon_two_slabs_lower Facts₀.inb_S2x400x128_S1x400x128_1_0_0 Facts₀.inb_S2x400x128_S1x400x128_0_0_0 _ _ [] p j).trans ?_
    rw [out_slab0_apply]
    show _ = (∑ k : Fin 10000, a (ix2 p k) * s (ix3 (0 : Fin 2) k j)) + bias (ix2 (0 : Fin 1) j)
    congr 1
    refine Finset.sum_congr rfl fun k _ => ?_
    rw [ld_slab s 0 (by omega) Facts₀.inb_S2x10000x128_S1x10000x128_0_0_0 0 k j]
    rfl
  · obtain rfl : b = 1 := Fin.ext (by have := b.isLt; omega)
    refine (canon_two_slabs_upper Facts₀.inb_S2x400x128_S1x400x128_1_0_0 _ _ p j).trans ?_
    rw [out_slab1_apply]
    show _ = (∑ k : Fin 10000, a (ix2 p k) * s (ix3 (1 : Fin 2) k j)) + bias (ix2 (0 : Fin 1) j)
    congr 1
    refine Finset.sum_congr rfl fun k _ => ?_
    rw [ld_slab s 1 (by omega) Facts₀.inb_S2x10000x128_S1x10000x128_1_0_0 0 k j]
    rfl

/-- A load of the scratch right after the two support slabs were stored reads the support matrix through its rectangle. -/
theorem readCov_support (v : View sig .tc .vmem S2x10000x128 .f32) (x : Vec Ideal S2x10000x128 .f32) (w : Vec Ideal S128x128 .f32)
    (r : Rect S2x10000x128) :
    v.readCov [(⟨Rect.unit (s := S2x10000x128) ![1, 0, 0] ![1, 10000, 128] Facts₀.inb_S2x10000x128_S1x10000x128_1_0_0,
          k0_pay2 (F := Ideal) w (View.ld x (Rect.unit (s := S2x10000x128) ![1, 0, 0] ![1, 10000, 128] Facts₀.inb_S2x10000x128_S1x10000x128_1_0_0))⟩ : View.Piece (Elt Ideal) S2x10000x128 .f32),
        ⟨Rect.unit (s := S2x10000x128) ![0, 0, 0] ![1, 10000, 128] Facts₀.inb_S2x10000x128_S1x10000x128_0_0_0,
          k0_pay1 (F := Ideal) w (View.ld x (Rect.unit (s := S2x10000x128) ![0, 0, 0] ![1, 10000, 128] Facts₀.inb_S2x10000x128_S1x10000x128_0_0_0))⟩]
      r.toLoadRect = View.ld (support x w) r := by
  rw [View.readCov_eq_canon_ld _ _ _ (two_slabs_cover Facts₀.inb_S2x10000x128_S1x10000x128_1_0_0 Facts₀.inb_S2x10000x128_S1x10000x128_0_0_0 _ _), support_canon]

/-! ## What each case of the body leaves -/

/-- At the grid's first point the body leaves the support matrix of its node features and weight in the scratch. -/
theorem scratch_first (c : Dev nD) (i : grid0.Coords) (a1 : Memref sig .tc .vmem S2x10000x128 .f32) (h1 : a1.IsWhole) (a2 : Memref sig .tc .vmem S128x128 .f32) (h2 : a2.IsWhole) (a3 : Memref sig .tc .vmem S400x10000 .f32) (h3 : a3.IsWhole) (a4 : Memref sig .tc .vmem S1x128 .f32) (h4 : a4.IsWhole) (a5 : Memref sig .tc .vmem S2x400x128 .f32) (h5 : a5.IsWhole) (a6 : Memref sig .tc .vmem S2x10000x128 .f32) (h6 : a6.IsWhole) (hc : cond0_0 i) (x0 : Vec Ideal S2x10000x128 .f32) (x1 : Vec Ideal S128x128 .f32) (x2 : Vec Ideal S400x10000 .f32) (x3 : Vec Ideal S1x128 .f32) :
    sout0_A_0 (F := Ideal) c i a1 h1 a2 h2 a3 h3 a4 h4 a5 h5 a6 h6 hc x0 x1 x2 x3 = support x0 x1 := by
  unfold sout0_A_0
  rw [View.read_writes_eq_canon _ _ _ (scover0_A_0 c i a1 h1 a2 h2 a3 h3 a4 h4 a5 h5 a6 h6 hc x0 x1 x2 x3)]
  unfold kernelRun0_A
  dsimp only
  sl_unfold_words
  simp only [View.readAt_eq_ld, h1.read_unread, h2.read_unread, View.ld_unit_zero (S := S128x128) hz2]
  exact support_canon x0 x1

/-- At a later point the body leaves, in the output block, the adjacency stripe times the scratch it found, plus the bias. -/
theorem out_later (c : Dev nD) (i : grid0.Coords) (a1 : Memref sig .tc .vmem S2x10000x128 .f32) (h1 : a1.IsWhole) (a2 : Memref sig .tc .vmem S128x128 .f32) (h2 : a2.IsWhole) (a3 : Memref sig .tc .vmem S400x10000 .f32) (h3 : a3.IsWhole) (a4 : Memref sig .tc .vmem S1x128 .f32) (h4 : a4.IsWhole) (a5 : Memref sig .tc .vmem S2x400x128 .f32) (h5 : a5.IsWhole) (a6 : Memref sig .tc .vmem S2x10000x128 .f32) (h6 : a6.IsWhole) (hc : ¬cond0_0 i) (x0 : Vec Ideal S2x10000x128 .f32) (x1 : Vec Ideal S128x128 .f32) (x2 : Vec Ideal S400x10000 .f32) (x3 : Vec Ideal S1x128 .f32) (xs0 : Vec Ideal S2x10000x128 .f32) :
    out0_B_4 (F := Ideal) c i a1 h1 a2 h2 a3 h3 a4 h4 a5 h5 a6 h6 hc x0 x1 x2 x3 xs0 = outBlock x2 x3 xs0 := by
  unfold out0_B_4
  rw [View.read_writes_eq_canon _ _ _ (cover0_B_4 c i a1 h1 a2 h2 a3 h3 a4 h4 a5 h5 a6 h6 hc x0 x1 x2 x3 xs0)]
  unfold kernelRun0_B
  dsimp only
  sl_unfold_words
  simp only [View.readAt_eq_ld, h3.read_unread, h4.read_unread, h6.read_unread, View.ld_unit_zero (S := S400x10000) hz2,
    View.ld_unit_zero (S := S1x128) hz2]
  exact out_canon x2 x3 xs0

/-- At the first point the body leaves the same expression over the support matrix it has just stored. -/
theorem out_first (c : Dev nD) (i : grid0.Coords) (a1 : Memref sig .tc .vmem S2x10000x128 .f32) (h1 : a1.IsWhole) (a2 : Memref sig .tc .vmem S128x128 .f32) (h2 : a2.IsWhole) (a3 : Memref sig .tc .vmem S400x10000 .f32) (h3 : a3.IsWhole) (a4 : Memref sig .tc .vmem S1x128 .f32) (h4 : a4.IsWhole) (a5 : Memref sig .tc .vmem S2x400x128 .f32) (h5 : a5.IsWhole) (a6 : Memref sig .tc .vmem S2x10000x128 .f32) (h6 : a6.IsWhole) (hc : cond0_0 i) (x0 : Vec Ideal S2x10000x128 .f32) (x1 : Vec Ideal S128x128 .f32) (x2 : Vec Ideal S400x10000 .f32) (x3 : Vec Ideal S1x128 .f32) :
    out0_A_4 (F := Ideal) c i a1 h1 a2 h2 a3 h3 a4 h4 a5 h5 a6 h6 hc x0 x1 x2 x3 = outBlock x2 x3 (support x0 x1) := by
  unfold out0_A_4
  rw [View.read_writes_eq_canon _ _ _ (cover0_A_4 c i a1 h1 a2 h2 a3 h3 a4 h4 a5 h5 a6 h6 hc x0 x1 x2 x3)]
  unfold kernelRun0_A
  dsimp only
  sl_unfold_words
  simp only [View.readAt_eq_ld, h1.read_unread, h2.read_unread, h3.read_unread, h4.read_unread,
    View.ld_unit_zero (S := S128x128) hz2, View.ld_unit_zero (S := S400x10000) hz2, View.ld_unit_zero (S := S1x128) hz2,
    readCov_support]
  exact out_canon x2 x3 (support x0 x1)

end Cert.KernelIdeal.Pieces

end
-- ==== Proof.KernelValue.lean ====
/-
  The idealized kernel's result array is the layer.

  The grid has 25 points; point `t` is handed rows `400 t … 400 t + 399` of the adjacency matrix (its stripe) and, at
  every point, the whole node-feature array, the whole weight and the whole bias row. The scratch is filled once, at
  point 0, with the support matrix `support x w`, and no later point writes it; so by induction on the point the scratch
  holds `support x w` after every point, and the output block after point `t` holds
      (b, p, j) ↦ (∑ k, adj (400 t + p, k) * support x w (b, k, j)) + bias j,
  which is block `t` of `layer x adj w bias`: rows `400 t … 400 t + 399` of both batch entries. Each point writes its
  block back; row `r` of the result lies in the block of point `r / 400`, so the 25 blocks cover the result array, and
  after the run it holds the layer. The bias row the region finds is the bias argument with a unit axis in front.
-/
import proofs.«179109_g91036126806428_cont_sun_m_1138_8_alg».proof.Proof.Pieces
import proofs.«179109_g91036126806428_cont_sun_m_1138_8_alg».proof.Proof.Gen.KernelIdeal.Value
import Idealize.ShloMosaic.Lib.ValueLayout
import Idealize.ShloMosaic.Lib.StableHlo.Run

set_option maxRecDepth 16384

noncomputable section

open scoped BigOperators

namespace Cert.KernelIdeal.LayerValue

open Cert.KernelIdeal Cert.KernelIdeal.Gen Cert.KernelIdeal.Pieces Cert.GraphConv
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The arrays the region finds, and the blocks the body is handed -/

/-- The node features, the adjacency matrix, the weight and the bias row as the region finds them. -/
abbrev xarr (c : Dev nD) : Vec Ideal S2x10000x128 .f32 := V m c main_arg0
abbrev adjarr (c : Dev nD) : Vec Ideal S10000x10000 .f32 := V m c main_arg1
abbrev warr (c : Dev nD) : Vec Ideal S128x128 .f32 := V m c main_arg2
abbrev biasrow (c : Dev nD) : Vec Ideal S1x128 .f32 := V m c main_v0
/-- Their blocks at grid point `t`. -/
abbrev xblk (c : Dev nD) (t : Fin cfg0.N) : Vec Ideal S2x10000x128 .f32 := iblk m c 0 t
abbrev wblk (c : Dev nD) (t : Fin cfg0.N) : Vec Ideal S128x128 .f32 := iblk m c 1 t
abbrev adjblk (c : Dev nD) (t : Fin cfg0.N) : Vec Ideal S400x10000 .f32 := iblk m c 2 t
abbrev biasblk (c : Dev nD) (t : Fin cfg0.N) : Vec Ideal S1x128 .f32 := iblk m c 3 t

/-- No host operation before the region writes the node features, the adjacency matrix or the weight. -/
theorem xarr_eq (c : Dev nD) : xarr m c = m ((c : Thread nD τ).loc main_arg0) := V_main_arg0 m c
theorem adjarr_eq (c : Dev nD) : adjarr m c = m ((c : Thread nD τ).loc main_arg1) := V_main_arg1 m c
theorem warr_eq (c : Dev nD) : warr m c = m ((c : Thread nD τ).loc main_arg2) := V_main_arg2 m c

/-- The printed index maps over the grid: the node features, the weight and the bias row are one block each, at block
    index zero; the adjacency stripe and the output block move with the point along the node axis. -/
theorem idx_facts : ∀ t : Fin cfg0.N,
    win0_0.index t (0 : Fin 3) = 0 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 3) = 0 ∧ win0_4.index t (1 : Fin 3) = t.val ∧ win0_4.index t (2 : Fin 3) = 0 :=
  (by decide +kernel : ∀ t : Fin grid0.N, _)

/-- The node-features block is the whole array, at every point. -/
theorem xblk_eq (c : Dev nD) (t : Fin cfg0.N) : xblk m c t = xarr m c := by
  funext y
  show V m c main_arg0 (((cfg0.win 0).blk t).view.emb y) = V m c main_arg0 y
  congr 1
  funext a
  apply Fin.ext
  obtain ⟨e0, e1, e2, -⟩ := idx_facts t
  match a with
  | ⟨0, _⟩ => show win0_0.index t (0 : Fin 3) * 2 + 1 * (y 0).val = (y 0).val; omega
  | ⟨1, _⟩ => show win0_0.index t (1 : Fin 3) * 10000 + 1 * (y 1).val = (y 1).val; omega
  | ⟨2, _⟩ => show win0_0.index t (2 : Fin 3) * 128 + 1 * (y 2).val = (y 2).val; omega

/-- The weight block is the whole weight, at every point. -/
theorem wblk_eq (c : Dev nD) (t : Fin cfg0.N) : wblk m c t = warr m c := by
  funext y
  show V m c main_arg2 (((cfg0.win 1).blk t).view.emb y) = V m c main_arg2 y
  congr 1
  funext a
  apply Fin.ext
  obtain ⟨-, -, -, e0, e1, -⟩ := idx_facts t
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The bias block is the whole bias row, at every point. -/
theorem biasblk_eq (c : Dev nD) (t : Fin cfg0.N) : biasblk m c t = biasrow m c := by
  funext y
  show V m c main_v0 (((cfg0.win 3).blk t).view.emb y) = V m c main_v0 y
  congr 1
  funext a
  apply Fin.ext
  obtain ⟨-, -, -, -, -, -, -, e0, e1, -⟩ := idx_facts t
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- Row `p` of the adjacency stripe at point `t` is row `400 t + p` of the adjacency matrix. -/
theorem adjblk_apply (c : Dev nD) (t : Fin cfg0.N) (p : Fin 400) (k : Fin 10000) (hr : 400 * t.val + p.val < 10000) :
    adjblk m c t (ix2 p k) = adjarr m c (ix2 (⟨400 * t.val + p.val, hr⟩ : Fin 10000) k) := by
  show V m c main_arg1 (((cfg0.win 2).blk t).view.emb (ix2 p k)) = V m c main_arg1 _
  congr 1
  funext a
  apply Fin.ext
  obtain ⟨-, -, -, -, -, e0, e1, -⟩ := idx_facts t
  match a with
  | ⟨0, _⟩ => show win0_2.index t (0 : Fin 2) * 400 + 1 * p.val = 400 * t.val + p.val; omega
  | ⟨1, _⟩ => show win0_2.index t (1 : Fin 2) * 10000 + 1 * k.val = k.val; omega

/-- The bias row the region finds is the bias argument with a unit axis in front (the host reshape before the call). -/
theorem biasrow_apply (c : Dev nD) (j : Fin 128) :
    biasrow m c (ix2 (0 : Fin 1) j) = m ((c : Thread nD τ).loc main_arg3) (ix1 j) := by
  have e : (V m c main_v0 : S1x128.Idx → EReal) = shapeCast S1x128 (m ((c : Thread nD τ).loc main_arg3)) Facts₀.shapeCasts_S128_S1x128 := by
    dsimp only [Gen.V, Gen.hostOps0]; after_results; rfl
  show (V m c main_v0 : S1x128.Idx → EReal) (ix2 (0 : Fin 1) j) = _
  rw [e, shapeCast_a_1a_apply]

/-! ## What the buffers hold after each point -/

/-- After every grid point the scratch holds the support matrix of the node features and the weight, and the output
    block holds the point's adjacency stripe times it, plus the bias: by induction on the point — the first point
    stores the support matrix, every later point finds it and leaves it. -/
theorem outs_eq (c : Dev nD) : ∀ (n : ℕ) (hn : n < cfg0.N),
    outsAt0 m c n hn = (outBlock (adjblk m c ⟨n, hn⟩) (biasblk m c ⟨n, hn⟩) (support (xarr m c) (warr m c)), support (xarr m c) (warr m c))
  | 0, hn => by
    rw [outsAt0_A m c ⟨0, hn⟩ rfl]
    refine Prod.ext ?_ ?_
    · dsimp only
      refine (out_first c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr rfl) (xblk m c ⟨0, hn⟩) (wblk m c ⟨0, hn⟩) (adjblk m c ⟨0, hn⟩) (biasblk m c ⟨0, hn⟩)).trans ?_
      rw [xblk_eq, wblk_eq]
    · dsimp only
      refine (scratch_first c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr rfl) (xblk m c ⟨0, hn⟩) (wblk m c ⟨0, hn⟩) (adjblk m c ⟨0, hn⟩) (biasblk m c ⟨0, hn⟩)).trans ?_
      rw [xblk_eq, wblk_eq]
  | n + 1, hn => by
    have hN : cfg0.N = 25 := N_0
    have hB : ¬(⟨n + 1, hn⟩ : Fin cfg0.N).val % 25 = 0 := by dsimp only; omega
    have ih := outs_eq c n (Nat.lt_of_succ_lt hn)
    rw [outsAt0_B m c ⟨n + 1, hn⟩ hB]
    refine Prod.ext ?_ ?_
    · dsimp only
      refine (out_later c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => hB ((hcond0_0 ⟨n + 1, hn⟩).mp h)) (xblk m c ⟨n + 1, hn⟩) (wblk m c ⟨n + 1, hn⟩) (adjblk m c ⟨n + 1, hn⟩) (biasblk m c ⟨n + 1, hn⟩) (outsAt0 m c n (Nat.lt_of_succ_lt hn)).2).trans ?_
      rw [ih]
    · dsimp only
      unfold sout0_B_0
      show (outsAt0 m c n (Nat.lt_of_succ_lt hn)).2 = _
      rw [ih]

/-! ## The result array -/

/-- The layer of the four argument arrays as the kernel was launched with them. -/
abbrev result (c : Dev nD) : Vec Ideal S2x10000x128 .f32 :=
  layer (m ((c : Thread nD τ).loc main_arg0)) (m ((c : Thread nD τ).loc main_arg1)) (m ((c : Thread nD τ).loc main_arg2))
    (m ((c : Thread nD τ).loc main_arg3))

/-- What point `t` writes back is block `t` of the layer: rows `400 t … 400 t + 399` of both batch entries. -/
theorem flushed_eq (c : Dev nD) (t : Fin cfg0.N) :
    (dats m 0 c).flushed 4 t = ((cfg0.win 4).blk t).view.read (Elt Ideal) (result m c) := by
  rw [Cert.KernelIdeal.Value.flushed4, outs_eq m c t.val t.isLt]
  have hN : cfg0.N = 25 := N_0
  have ht := t.isLt
  funext y
  obtain ⟨b, p, j, rfl⟩ : ∃ (b : Fin 2) (p : Fin 400) (j : Fin 128), y = ix3 b p j := ⟨y 0, y 1, y 2, eq_ix3 y⟩
  have hr : 400 * t.val + p.val < 10000 := by have := p.isLt; omega
  obtain ⟨-, -, -, -, -, -, -, -, -, e0, e1, e2⟩ := idx_facts t
  have eidx : ((cfg0.win 4).blk t).view.emb (ix3 b p j) = ix3 b (⟨400 * t.val + p.val, hr⟩ : Fin 10000) j := by
    funext a
    apply Fin.ext
    match a with
    | ⟨0, _⟩ => show win0_4.index t (0 : Fin 3) * 2 + 1 * b.val = b.val; omega
    | ⟨1, _⟩ => show win0_4.index t (1 : Fin 3) * 400 + 1 * p.val = 400 * t.val + p.val; omega
    | ⟨2, _⟩ => show win0_4.index t (2 : Fin 3) * 128 + 1 * j.val = j.val; omega
  show outBlock (adjblk m c ⟨t.val, t.isLt⟩) (biasblk m c ⟨t.val, t.isLt⟩) (support (xarr m c) (warr m c)) (ix3 b p j)
    = result m c (((cfg0.win 4).blk t).view.emb (ix3 b p j))
  rw [eidx]
  show _ = layer (m ((c : Thread nD τ).loc main_arg0)) (m ((c : Thread nD τ).loc main_arg1)) (m ((c : Thread nD τ).loc main_arg2))
    (m ((c : Thread nD τ).loc main_arg3)) (ix3 b (⟨400 * t.val + p.val, hr⟩ : Fin 10000) j)
  rw [layer_apply]
  show (∑ k : Fin 10000, adjblk m c t (ix2 p k) * support (xarr m c) (warr m c) (ix3 b k j)) + biasblk m c t (ix2 (0 : Fin 1) j) = _
  rw [biasblk_eq, biasrow_apply, xarr_eq, warr_eq]
  congr 1
  refine Finset.sum_congr rfl fun k _ => ?_
  rw [adjblk_apply m c t p k hr, adjarr_eq]

/-- An index of the result array is in point `t`'s block iff each coordinate is in the block's range on its axis. -/
theorem mem_blk (t : Fin cfg0.N) (i : S2x10000x128.Idx) :
    i ∈ ((cfg0.win 4).blk t).view.set ↔ ∀ a : Fin 3, win0_4.index t a * S2x400x128.size a ≤ (i a).val ∧ (i a).val < win0_4.index t a * S2x400x128.size a + S2x400x128.size a := by
  show i ∈ ((View.whole main_v1).slice (win0_4.rect t)).set ↔ _
  rw [View.set_slice_whole, Rect.mem_set_unit]
  exact Iff.rfl

/-- The 25 blocks cover the result array: row `r` lies in the block of point `r / 400`. -/
theorem cover (i : S2x10000x128.Idx) :
    ∃ t : Fin cfg0.N, (cfg0.win 4).flush t = true ∧ i ∈ ((cfg0.win 4).blk t).view.set := by
  have hN : cfg0.N = 25 := N_0
  have h0 : (i 0).val < 2 := (i 0).isLt
  have h1 : (i 1).val < 10000 := (i 1).isLt
  have h2 : (i 2).val < 128 := (i 2).isLt
  refine ⟨⟨(i 1).val / 400, by omega⟩, flush0_4 _, ?_⟩
  rw [mem_blk]
  obtain ⟨-, -, -, -, -, -, -, -, -, e0, e1, e2⟩ := idx_facts ⟨(i 1).val / 400, by omega⟩
  intro a
  match a with
  | ⟨0, _⟩ => show win0_4.index _ (0 : Fin 3) * 2 ≤ (i 0).val ∧ (i 0).val < win0_4.index _ (0 : Fin 3) * 2 + 2; rw [e0]; omega
  | ⟨1, _⟩ => show win0_4.index _ (1 : Fin 3) * 400 ≤ (i 1).val ∧ (i 1).val < win0_4.index _ (1 : Fin 3) * 400 + 400; rw [e1]; dsimp only; omega
  | ⟨2, _⟩ => show win0_4.index _ (2 : Fin 3) * 128 ≤ (i 2).val ∧ (i 2).val < win0_4.index _ (2 : Fin 3) * 128 + 128; rw [e2]; omega

/-- So after the run the result array holds the layer. -/
theorem final (c : Dev nD) : (dats m 0 c).arrAt 4 cfg0.N = result m c :=
  (dats m 0 c).arrAt_eq_of_cover 4 (result m c) (fun t _ => flushed_eq m c t) cover

/-- The kernel's run: every weakly fair execution ends with the result array at the layer of the arguments, the
    arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.LayerValue

end
-- ==== Proof.Reference.lean ====
/-
  The reference, read at an entry, is the layer.

  For each batch entry the reference slices that entry's node features out of the batch, multiplies them by the weight
  (the support matrix), multiplies the adjacency matrix by the support, adds the bias broadcast over the rows, and in
  the end stacks the two results along a new leading axis. Read at `(b, r, j)` this is
      (∑ k, adj (r, k) * (∑ l, x (b, k, l) * w (l, j))) + bias j,
  the layer of the specification: each host product is the plain sum over its contracted axis, the slices, reshapes and
  broadcasts only rename indices, and the stack reads its piece `b`.
-/
import proofs.«179109_g91036126806428_cont_sun_m_1138_8_alg».proof.Proof.Spec
import proofs.«179109_g91036126806428_cont_sun_m_1138_8_alg».proof.Proof.Gen.ReferenceIdeal.Read

noncomputable section

open scoped BigOperators

namespace Cert.ReferenceIdeal.RefValue

open Cert.ReferenceIdeal Cert.ReferenceIdeal.Gen Cert.ReferenceIdeal.Read Cert.GraphConv
open Idealize.ShloMosaic Idealize.ShloMosaic.ValueIdx

/-! ## Batch entry 0 -/

/-- Batch entry 0's node features as a matrix: entry `(k, l)` is `x (0, k, l)`. -/
theorem feats0_apply (x : (⟨S2x10000x128, .f32⟩ : BufTy).Contents (Elt Ideal)) (k : Fin 10000) (l : Fin 128) :
    val_main_v1 (F := Ideal) x (ix2 k l) = x (ix3 (0 : Fin 2) k l) := by
  rw [val_main_v1_apply, val_main_v0_apply]
  congr 1
  funext a
  apply Fin.ext
  have hk := k.isLt
  have hl := l.isLt
  match a with
  | ⟨0, _⟩ => rfl
  | ⟨1, _⟩ => show (k.val * 128 + l.val) / 128 % 10000 = k.val; omega
  | ⟨2, _⟩ => show (k.val * 128 + l.val) % 128 = l.val; omega

/-- Batch entry 0's support matrix. -/
theorem support0_apply (x : (⟨S2x10000x128, .f32⟩ : BufTy).Contents (Elt Ideal)) (w : (⟨S128x128, .f32⟩ : BufTy).Contents (Elt Ideal)) (k : Fin 10000) (j : Fin 128) :
    val_main_v2 (F := Ideal) x w (ix2 k j) = support x w (ix3 (0 : Fin 2) k j) := by
  rw [val_main_v2_apply, support_apply]
  refine Finset.sum_congr rfl fun l _ => ?_
  have e1 : lidx_main_v2 (ix2 k j) l = ix2 k l := funext fun a => by match a with | ⟨0, _⟩ => rfl | ⟨1, _⟩ => rfl
  have e2 : ridx_main_v2 (ix2 k j) l = ix2 l j := funext fun a => by match a with | ⟨0, _⟩ => rfl | ⟨1, _⟩ => rfl
  rw [e1, e2, feats0_apply]

/-- The bias broadcast over the rows, as batch entry 0 adds it. -/
theorem bias_rows0_apply (bias : (⟨S128, .f32⟩ : BufTy).Contents (Elt Ideal)) (r : Fin 10000) (j : Fin 128) :
    val_main_v5 (F := Ideal) bias (ix2 r j) = bias (ix1 j) := by
  rw [val_main_v5_apply, val_main_v4_apply]
  congr 1
  funext a
  match a with
  | ⟨0, _⟩ => rfl

/-- Batch entry 0's result is the layer's entry 0. -/
theorem layer0_apply (x : (⟨S2x10000x128, .f32⟩ : BufTy).Contents (Elt Ideal)) (adj : (⟨S10000x10000, .f32⟩ : BufTy).Contents (Elt Ideal)) (w : (⟨S128x128, .f32⟩ : BufTy).Contents (Elt Ideal)) (bias : (⟨S128, .f32⟩ : BufTy).Contents (Elt Ideal)) (r : Fin 10000) (j : Fin 128) :
    val_main_v6 (F := Ideal) x adj w bias (ix2 r j) = layer x adj w bias (ix3 (0 : Fin 2) r j) := by
  rw [val_main_v6_apply, val_main_v3_apply, bias_rows0_apply, layer_apply, Ideal.addf_def]
  congr 1
  refine Finset.sum_congr rfl fun k _ => ?_
  have e1 : lidx_main_v3 (ix2 r j) k = ix2 r k := funext fun a => by match a with | ⟨0, _⟩ => rfl | ⟨1, _⟩ => rfl
  have e2 : ridx_main_v3 (ix2 r j) k = ix2 k j := funext fun a => by match a with | ⟨0, _⟩ => rfl | ⟨1, _⟩ => rfl
  rw [e1, e2, support0_apply]

/-! ## Batch entry 1 -/

/-- Batch entry 1's node features as a matrix: entry `(k, l)` is `x (1, k, l)`. -/
theorem feats1_apply (x : (⟨S2x10000x128, .f32⟩ : BufTy).Contents (Elt Ideal)) (k : Fin 10000) (l : Fin 128) :
    val_main_v8 (F := Ideal) x (ix2 k l) = x (ix3 (1 : Fin 2) k l) := by
  rw [val_main_v8_apply, val_main_v7_apply]
  congr 1
  funext a
  apply Fin.ext
  have hk := k.isLt
  have hl := l.isLt
  match a with
  | ⟨0, _⟩ => rfl
  | ⟨1, _⟩ => show (k.val * 128 + l.val) / 128 % 10000 = k.val; omega
  | ⟨2, _⟩ => show (k.val * 128 + l.val) % 128 = l.val; omega

/-- Batch entry 1's support matrix. -/
theorem support1_apply (x : (⟨S2x10000x128, .f32⟩ : BufTy).Contents (Elt Ideal)) (w : (⟨S128x128, .f32⟩ : BufTy).Contents (Elt Ideal)) (k : Fin 10000) (j : Fin 128) :
    val_main_v9 (F := Ideal) x w (ix2 k j) = support x w (ix3 (1 : Fin 2) k j) := by
  rw [val_main_v9_apply, support_apply]
  refine Finset.sum_congr rfl fun l _ => ?_
  have e1 : lidx_main_v9 (ix2 k j) l = ix2 k l := funext fun a => by match a with | ⟨0, _⟩ => rfl | ⟨1, _⟩ => rfl
  have e2 : ridx_main_v9 (ix2 k j) l = ix2 l j := funext fun a => by match a with | ⟨0, _⟩ => rfl | ⟨1, _⟩ => rfl
  rw [e1, e2, feats1_apply]

/-- The bias broadcast over the rows, as batch entry 1 adds it. -/
theorem bias_rows1_apply (bias : (⟨S128, .f32⟩ : BufTy).Contents (Elt Ideal)) (r : Fin 10000) (j : Fin 128) :
    val_main_v12 (F := Ideal) bias (ix2 r j) = bias (ix1 j) := by
  rw [val_main_v12_apply, val_main_v11_apply]
  congr 1
  funext a
  match a with
  | ⟨0, _⟩ => rfl

/-- Batch entry 1's result is the layer's entry 1. -/
theorem layer1_apply (x : (⟨S2x10000x128, .f32⟩ : BufTy).Contents (Elt Ideal)) (adj : (⟨S10000x10000, .f32⟩ : BufTy).Contents (Elt Ideal)) (w : (⟨S128x128, .f32⟩ : BufTy).Contents (Elt Ideal)) (bias : (⟨S128, .f32⟩ : BufTy).Contents (Elt Ideal)) (r : Fin 10000) (j : Fin 128) :
    val_main_v13 (F := Ideal) x adj w bias (ix2 r j) = layer x adj w bias (ix3 (1 : Fin 2) r j) := by
  rw [val_main_v13_apply, val_main_v10_apply, bias_rows1_apply, layer_apply, Ideal.addf_def]
  congr 1
  refine Finset.sum_congr rfl fun k _ => ?_
  have e1 : lidx_main_v10 (ix2 r j) k = ix2 r k := funext fun a => by match a with | ⟨0, _⟩ => rfl | ⟨1, _⟩ => rfl
  have e2 : ridx_main_v10 (ix2 r j) k = ix2 k j := funext fun a => by match a with | ⟨0, _⟩ => rfl | ⟨1, _⟩ => rfl
  rw [e1, e2, support1_apply]

/-! ## The stack -/

/-- The reference's result is the layer: the stack of the two batch entries' results reads piece `b` at `(b, r, j)`. -/
theorem result_eq (x : (⟨S2x10000x128, .f32⟩ : BufTy).Contents (Elt Ideal)) (adj : (⟨S10000x10000, .f32⟩ : BufTy).Contents (Elt Ideal)) (w : (⟨S128x128, .f32⟩ : BufTy).Contents (Elt Ideal)) (bias : (⟨S128, .f32⟩ : BufTy).Contents (Elt Ideal)) :
    val_main_v16 (F := Ideal) x adj w bias = layer x adj w bias := by
  funext i
  obtain ⟨b, r, j, rfl⟩ : ∃ (b : Fin 2) (r : Fin 10000) (j : Fin 128), i = ix3 b r j := ⟨i 0, i 1, i 2, eq_ix3 i⟩
  unfold val_main_v16
  have e14 : idx_main_v14 (ix3 (0 : Fin 1) r j) = ix2 r j := funext fun a => by match a with | ⟨0, _⟩ => rfl | ⟨1, _⟩ => rfl
  have e15 : idx_main_v15 (ix3 (0 : Fin 1) r j) = ix2 r j := funext fun a => by match a with | ⟨0, _⟩ => rfl | ⟨1, _⟩ => rfl
  by_cases hb : b.val = 0
  · obtain rfl : b = 0 := Fin.ext hb
    refine (concatenate_pair_apply_left (0 : Fin S2x10000x128.rank) _ _ concatenates_S1x10000x128_S1x10000x128_S2x10000x128_d0
      (ix3 (0 : Fin 2) r j) rfl (ix3 (0 : Fin 1) r j) (fun a => by match a with | ⟨0, _⟩ => rfl | ⟨1, _⟩ => rfl | ⟨2, _⟩ => rfl)).trans ?_
    rw [val_main_v14_apply, e14, layer0_apply]
  · obtain rfl : b = 1 := Fin.ext (by have := b.isLt; omega)
    refine (concatenate_pair_apply_right (0 : Fin S2x10000x128.rank) _ _ concatenates_S1x10000x128_S1x10000x128_S2x10000x128_d0
      (ix3 (1 : Fin 2) r j) rfl rfl (ix3 (0 : Fin 1) r j)
      (fun a ha => by match a with | ⟨0, _⟩ => exact absurd rfl ha | ⟨1, _⟩ => rfl | ⟨2, _⟩ => rfl) rfl).trans ?_
    rw [val_main_v15_apply, e15, layer1_apply]

end Cert.ReferenceIdeal.RefValue

end
-- ==== Proof.lean ====
/-
  The certificate of a graph-convolution layer, `out[b] = adj · (x[b] · w) + bias` for the two batch entries `b`, over
  f32[2, 10000, 128] node features, a dense f32[10000, 10000] adjacency matrix, an f32[128, 128] weight and an f32[128] bias.

  The kernel runs over 25 row stripes of the adjacency matrix. At the first stripe it computes the support matrix
  `x[b] · w` of both batch entries into a scratch that stays in place for the whole grid; at every stripe it writes
  `stripe · support[b] + bias` for both batch entries. The reference computes, batch entry by batch entry,
  `adj · (x[b] · w) + bias` and stacks the two results.

  Over the extended reals every matrix product is the plain sum over its contracted axis, so both programs compute, at
  `(b, r, j)`,
      (∑ k, adj (r, k) * (∑ l, x (b, k, l) * w (l, j))) + bias j
  with the same nesting of the two sums (Proof/Spec.lean: `layer`). No term is moved across a sum, so the equality needs
  no law of the extended reals that fails at infinities, and the inputs' finiteness is not used.

    Proof/Spec.lean         the layer as one function of the four arrays
    Proof/Reference.lean    the reference's result is the layer (its products, slices, broadcasts and the stack, read at an entry)
    Proof/Products.lean     the kernel's two products at an entry
    Proof/Payloads.lean     the four stored values of the kernel body at an entry
    Proof/LibSlabs.lean     unit slabs along a leading axis: loads through one, two stores filling a buffer
    Proof/Pieces.lean       what each case of the body leaves in the scratch and the output block
    Proof/KernelValue.lean  the induction over the grid points, the blocks' cover, the kernel's run

  The three frames are the generated ones (the reference's is its generated run with the result dropped); the ideal pass
  rewrote nothing, so `preserves` is trivial.
-/
import proofs.«179109_g91036126806428_cont_sun_m_1138_8_alg».proof.Defs
import proofs.«179109_g91036126806428_cont_sun_m_1138_8_alg».proof.Proof.Gen.Kernel
import proofs.«179109_g91036126806428_cont_sun_m_1138_8_alg».proof.Proof.Gen.Kernel.Skeleton
import proofs.«179109_g91036126806428_cont_sun_m_1138_8_alg».proof.Proof.Gen.Kernel.Launch
import proofs.«179109_g91036126806428_cont_sun_m_1138_8_alg».proof.Proof.Gen.Kernel.Points
import proofs.«179109_g91036126806428_cont_sun_m_1138_8_alg».proof.Proof.Gen.Kernel.Frame
import proofs.«179109_g91036126806428_cont_sun_m_1138_8_alg».proof.Proof.Gen.KernelIdeal
import proofs.«179109_g91036126806428_cont_sun_m_1138_8_alg».proof.Proof.Gen.KernelIdeal.Skeleton
import proofs.«179109_g91036126806428_cont_sun_m_1138_8_alg».proof.Proof.Gen.KernelIdeal.Launch
import proofs.«179109_g91036126806428_cont_sun_m_1138_8_alg».proof.Proof.Gen.KernelIdeal.Points
import proofs.«179109_g91036126806428_cont_sun_m_1138_8_alg».proof.Proof.Gen.KernelIdeal.Frame
import proofs.«179109_g91036126806428_cont_sun_m_1138_8_alg».proof.Proof.Gen.ReferenceIdeal
import proofs.«179109_g91036126806428_cont_sun_m_1138_8_alg».proof.Proof.Gen.Pre_finite_inputs
import proofs.«179109_g91036126806428_cont_sun_m_1138_8_alg».proof.Proof.Gen.KernelIdeal.Value
import proofs.«179109_g91036126806428_cont_sun_m_1138_8_alg».proof.Proof.Gen.ReferenceIdeal.Run
import proofs.«179109_g91036126806428_cont_sun_m_1138_8_alg».proof.Proof.Gen.ReferenceIdeal.Read
import proofs.«179109_g91036126806428_cont_sun_m_1138_8_alg».proof.Proof.KernelValue
import proofs.«179109_g91036126806428_cont_sun_m_1138_8_alg».proof.Proof.Reference
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the four arguments both idealized programs end with the layer of those arguments in
    their result array: the kernel by its run over the grid, the reference by its run read at an entry. -/
theorem algebraic : Cert.algebraic_KernelIdeal_ReferenceIdeal := by
  intro m ρ m' ρ' _ hagree
  refine ⟨fun c => Cert.KernelIdeal.LayerValue.result m c, Cert.KernelIdeal.LayerValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
